-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000x8x8 : Shape := ⟨3, ![800000, 8, 8]⟩
abbrev S8x8 : Shape := ⟨2, ![8, 8]⟩
abbrev S_ : Shape := ⟨0, ![]⟩

class Facts : Prop where
  bcast_S_S800000x8x8 : S_.BroadcastsInDim S800000x8x8 (![] : Fin 0 → Fin S800000x8x8.rank)
  reducesTo_S800000x8x8_S_d0_1_2 : S800000x8x8.ReducesTo [0, 1, 2] S_
  h_S_ : 0 < S_.numel
  bcast_S_S8x8 : S_.BroadcastsInDim S8x8 (![] : Fin 0 → Fin S8x8.rank)
  reducesTo_S8x8_S_d0_1 : S8x8.ReducesTo [0, 1] S_

variable [Facts]

def fn {F : FTy → Type} [FloatOps F] (main_arg0 : FVec F S800000x8x8 .f32) (main_arg1 : FVec F S8x8 .f32) : IVec S_ 1 :=
  let main_v0 : FVec F S800000x8x8 .f32 := Host.absf main_arg0
  let main_cst : FVec F S_ .f32 := constant S_ .f32 0x7F800000#32
  let main_v1 : FVec F S800000x8x8 .f32 := broadcastInDim S800000x8x8 ![] bcast_S_S800000x8x8 main_cst
  let main_v2 : IVec S800000x8x8 1 := cmpf .olt main_v0 main_v1
  let main_c : IVec S_ 1 := constantI S_ 1 1#1
  let main_v3 : IVec S_ 1 := (fun x v => Host.reduce IntOp.andi x v reducesTo_S800000x8x8_S_d0_1_2 h_S_) main_v2 main_c
  let main_v4 : FVec F S8x8 .f32 := Host.absf main_arg1
  let main_cst_0 : FVec F S_ .f32 := constant S_ .f32 0x7F800000#32
  let main_v5 : FVec F S8x8 .f32 := broadcastInDim S8x8 ![] bcast_S_S8x8 main_cst_0
  let main_v6 : IVec S8x8 1 := cmpf .olt main_v4 main_v5
  let main_c_1 : IVec S_ 1 := constantI S_ 1 1#1
  let main_v7 : IVec S_ 1 := (fun x v => Host.reduce IntOp.andi x v reducesTo_S8x8_S_d0_1 h_S_) main_v6 main_c_1
  let main_v8 : IVec S_ 1 := andi main_v3 main_v7
  main_v8
-- ==== Kernel.lean ====
abbrev S800000x8x8 : Shape := ⟨3, ![800000, 8, 8]⟩
abbrev S8x8 : Shape := ⟨2, ![8, 8]⟩
abbrev S400000x128 : Shape := ⟨2, ![400000, 128]⟩
abbrev S64 : Shape := ⟨1, ![64]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S10000x128 : Shape := ⟨2, ![10000, 128]⟩
abbrev S1x1x800000x8x8 : Shape := ⟨5, ![1, 1, 800000, 8, 8]⟩

abbrev nBuf : Space → Nat
  | .hbm => 11
  | .vmem => 5
  | .smem => 0
  | _ => 0

abbrev bufTy : (tb : Table) → Fin (tcTables nBuf tb) → BufTy
  | .hbm, ⟨0, _⟩ => ⟨S800000x8x8, .f32⟩
  | .hbm, ⟨1, _⟩ => ⟨S8x8, .f32⟩
  | .hbm, ⟨2, _⟩ => ⟨S400000x128, .f32⟩
  | .hbm, ⟨3, _⟩ => ⟨S64, .f32⟩
  | .hbm, ⟨4, _⟩ => ⟨S1x64, .f32⟩
  | .hbm, ⟨5, _⟩ => ⟨S2x64, .f32⟩
  | .hbm, ⟨6, _⟩ => ⟨S128, .f32⟩
  | .hbm, ⟨7, _⟩ => ⟨S1x128, .f32⟩
  | .hbm, ⟨8, _⟩ => ⟨S400000x128, .f32⟩
  | .hbm, ⟨9, _⟩ => ⟨S800000x8x8, .f32⟩
  | .hbm, ⟨10, _⟩ => ⟨S1x1x800000x8x8, .f32⟩
  | .local _ .vmem, ⟨0, _⟩ => ⟨S10000x128, .f32⟩
  | .local _ .vmem, ⟨1, _⟩ => ⟨S10000x128, .f32⟩
  | .local _ .vmem, ⟨2, _⟩ => ⟨S1x128, .f32⟩
  | .local _ .vmem, ⟨3, _⟩ => ⟨S10000x128, .f32⟩
  | .local _ .vmem, ⟨4, _⟩ => ⟨S10000x128, .f32⟩
  | _, _ => ⟨S800000x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S800000x8x8_S400000x128 : S800000x8x8.ShapeCasts S400000x128
  shapeCasts_S8x8_S64 : S8x8.ShapeCasts S64
  shapeCasts_S64_S1x64 : S64.ShapeCasts S1x64
  bcast_S1x64_S2x64_0_1 : S1x64.BroadcastsInDim S2x64 (![0, 1] : Fin 2 → Fin S2x64.rank)
  shapeCasts_S2x64_S128 : S2x64.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  shapeCasts_S400000x128_S800000x8x8 : S400000x128.ShapeCasts S800000x8x8
  bcast_S800000x8x8_S1x1x800000x8x8_2_3_4 : S800000x8x8.BroadcastsInDim S1x1x800000x8x8 (![2, 3, 4] : Fin 3 → Fin S1x1x800000x8x8.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S400000x128.size a
  hwx0_0 : ∀ i : grid0.Coords, EltTy.bits .f32 = 32 ∨ (Rect.block (s := S400000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S400000x128.size a
  hwx0_2 : ∀ i : grid0.Coords, EltTy.bits .f32 = 32 ∨ (Rect.block (s := S400000x128) S10000x128.size (cc0_transform_2 i) (hinb0_2 i)).WholeWords (EltTy.packing .f32)

variable [Facts₀]

abbrev win0_0 : Pipeline.Window sig grid0 :=
  Pipeline.Window.ofSpec (Memref.whole main_v0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S800000x8x8 : Shape := ⟨3, ![800000, 8, 8]⟩
abbrev S8x8 : Shape := ⟨2, ![8, 8]⟩
abbrev S1x8x8 : Shape := ⟨3, ![1, 8, 8]⟩
abbrev S_ : Shape := ⟨0, ![]⟩
abbrev S1x1x800000x8x8 : Shape := ⟨5, ![1, 1, 800000, 8, 8]⟩

abbrev nBuf : Space → Nat
  | .hbm => 9
  | .vmem => 0
  | .smem => 0
  | _ => 0

abbrev bufTy : (tb : Table) → Fin (tcTables nBuf tb) → BufTy
  | .hbm, ⟨0, _⟩ => ⟨S800000x8x8, .f32⟩
  | .hbm, ⟨1, _⟩ => ⟨S8x8, .f32⟩
  | .hbm, ⟨2, _⟩ => ⟨S1x8x8, .f32⟩
  | .hbm, ⟨3, _⟩ => ⟨S800000x8x8, .f32⟩
  | .hbm, ⟨4, _⟩ => ⟨S800000x8x8, .f32⟩
  | .hbm, ⟨5, _⟩ => ⟨S_, .f32⟩
  | .hbm, ⟨6, _⟩ => ⟨S800000x8x8, .f32⟩
  | .hbm, ⟨7, _⟩ => ⟨S800000x8x8, .f32⟩
  | .hbm, ⟨8, _⟩ => ⟨S1x1x800000x8x8, .f32⟩
  | _, _ => ⟨S800000x8x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S8x8_S1x8x8_1_2 : S8x8.BroadcastsInDim S1x8x8 (![1, 2] : Fin 2 → Fin S1x8x8.rank)
  bcast_S1x8x8_S800000x8x8_0_1_2 : S1x8x8.BroadcastsInDim S800000x8x8 (![0, 1, 2] : Fin 3 → Fin S800000x8x8.rank)
  bcast_S_S800000x8x8 : S_.BroadcastsInDim S800000x8x8 (![] : Fin 0 → Fin S800000x8x8.rank)
  bcast_S800000x8x8_S1x1x800000x8x8_2_3_4 : S800000x8x8.BroadcastsInDim S1x1x800000x8x8 (![2, 3, 4] : Fin 3 → Fin S1x1x800000x8x8.rank)

variable [Facts₀]

class Facts : Prop extends Facts₀ where

variable [Facts]
-- ==== Proof.Tiles.lean ====
/-
  The mathematics of the certificate, with no program in sight.

  A stack of 800000 tiles of 8 × 8 numbers is scaled entry by entry by ONE 8 × 8 table and shifted by a constant:
      scaled x q (a, b, c) = x (a, b, c) · q (b, c) + ε.
  One side of the certificate computes exactly this. The other first lays the stack out as 400000 rows of 128 numbers —
  row r holds tiles 2r and 2r + 1, one after the other, so that position 64·a + 8·b + c of the stack is lane
  (64·a + 8·b + c) mod 128 of row (64·a + 8·b + c) / 128 — lays the table out along 128 lanes the same way (the 64 entries,
  twice: lane l holds entry ((l mod 64) / 8, l mod 8)), multiplies every row by those lanes, adds ε, and lays the rows out as
  tiles again. Lane (64·a + 8·b + c) mod 128 holds the table's entry (b, c), because 8·b + c < 64: that one piece of
  arithmetic is why the two agree, and it is all the law there is — the product and the sum are the same operations on the
  same two numbers on both sides, so nothing is asked of the numbers (no finiteness).
-/
import Idealize.ShloMosaic.Lib.Pipeline.Value
import Idealize.ShloMosaic.Lib.ValueIdx
import Idealize.ShloMosaic.PureOps.Ideal

noncomputable section

namespace Cert.Tiles

open Idealize.ShloMosaic Idealize.ShloMosaic.ValueIdx

/-- The stack of tiles. -/
abbrev Stack : Shape := ⟨3, ![800000, 8, 8]⟩
/-- The table. -/
abbrev Table : Shape := ⟨2, ![8, 8]⟩
/-- The stack as rows of two tiles. -/
abbrev Rows : Shape := ⟨2, ![400000, 128]⟩
/-- A band of 10000 consecutive rows. -/
abbrev Band : Shape := ⟨2, ![10000, 128]⟩
/-- The table's 64 entries in a line; as one row; twice; in a line of 128; as one row of 128 lanes. -/
abbrev Flat64 : Shape := ⟨1, ![64]⟩
abbrev Row64 : Shape := ⟨2, ![1, 64]⟩
abbrev Pair64 : Shape := ⟨2, ![2, 64]⟩
abbrev Flat128 : Shape := ⟨1, ![128]⟩
abbrev Lanes : Shape := ⟨2, ![1, 128]⟩

/-- The constant added to every product: the same binary word on both sides, never evaluated. -/
abbrev shift : EReal := Ideal.ofBits .f32 0x3727C5AC#32

/-- The table entry that scales position (a, b, c) of the stack: (b, c). -/
abbrev tableIx (i : Stack.Idx) : Table.Idx :=
  ix2 (n0 := 8) (n1 := 8) ⟨(i 1).val, (i 1).isLt⟩ ⟨(i 2).val, (i 2).isLt⟩

/-- THE SPECIFICATION: every tile times the table, entry by entry, plus the constant. -/
def scaled (x : FVec Ideal Stack .f32) (q : FVec Ideal Table .f32) : FVec Ideal Stack .f32 :=
  fun i => x i * q (tableIx i) + shift

/-! ## The table along 128 lanes -/

/-- The table flattened, repeated twice, and flattened again to one row of 128 lanes. -/
def lanes {α : Type} (q : Table.Idx → α) (h1 : Table.ShapeCasts Flat64) (h2 : Flat64.ShapeCasts Row64)
    (h3 : Row64.BroadcastsInDim Pair64 (![0, 1] : Fin 2 → Fin Pair64.rank)) (h4 : Pair64.ShapeCasts Flat128)
    (h5 : Flat128.ShapeCasts Lanes) : Lanes.Idx → α :=
  shapeCast Lanes (shapeCast Flat128 (broadcastInDim Pair64 ![0, 1] h3 (shapeCast Row64 (shapeCast Flat64 q h1) h2)) h4) h5

/-- Lane l holds the table's entry ((l mod 64) / 8, l mod 8): five re-layouts, each read at one index. -/
theorem lanes_apply {α : Type} (q : Table.Idx → α) (h1 : Table.ShapeCasts Flat64) (h2 : Flat64.ShapeCasts Row64)
    (h3 : Row64.BroadcastsInDim Pair64 (![0, 1] : Fin 2 → Fin Pair64.rank)) (h4 : Pair64.ShapeCasts Flat128)
    (h5 : Flat128.ShapeCasts Lanes) (z : Fin 1) (l : Fin 128) :
    lanes q h1 h2 h3 h4 h5 (ix2 z l)
      = q (ix2 (n0 := 8) (n1 := 8) ⟨l.val % 64 / 8, by have := l.isLt; omega⟩ ⟨l.val % 8, by omega⟩) := by
  have hl : l.val < 128 := l.isLt
  have hz : z.val < 1 := z.isLt
  unfold lanes
  -- one row of 128 at (z, l) is the line of 128 at l
  refine (shapeCast_apply _ h5 (ix2 z l) (ix1 l) (by
    rw [Shape.rowMajor_val_one, Shape.rowMajor_val_two]
    show l.val = z.val * 128 + l.val
    omega)).trans ?_
  -- the line of 128 at l is the two copies at (l / 64, l mod 64)
  refine (shapeCast_apply _ h4 (ix1 l) (ix2 (n0 := 2) (n1 := 64) ⟨l.val / 64, by omega⟩ ⟨l.val % 64, by omega⟩) (by
    rw [Shape.rowMajor_val_two, Shape.rowMajor_val_one]
    show l.val / 64 * 64 + l.val % 64 = l.val
    omega)).trans ?_
  -- either copy at u is the one row of 64 at (0, u)
  refine (broadcastInDim_apply _ h3 _ _ (ix2 (n0 := 1) (n1 := 64) ⟨0, Nat.one_pos⟩ ⟨l.val % 64, by omega⟩) (fun a => match a with
    | ⟨0, _⟩ => by show 0 = if (1 : Nat) = 1 then 0 else l.val / 64; rw [if_pos rfl]
    | ⟨1, _⟩ => by show l.val % 64 = if (64 : Nat) = 1 then 0 else l.val % 64; rw [if_neg (by decide)])).trans ?_
  -- the one row of 64 at (0, u) is the line of 64 at u
  refine (shapeCast_apply _ h2 _ (ix1 (n := 64) ⟨l.val % 64, by omega⟩) (by
    rw [Shape.rowMajor_val_one, Shape.rowMajor_val_two]
    show l.val % 64 = 0 * 64 + l.val % 64
    omega)).trans ?_
  -- the line of 64 at u is the table at (u / 8, u mod 8)
  exact shapeCast_apply _ h1 _ _ (by
    rw [Shape.rowMajor_val_two, Shape.rowMajor_val_one]
    show l.val % 64 / 8 * 8 + l.val % 8 = l.val % 64
    omega)

/-! ## The rows scaled by the lanes -/

/-- Every row times the lanes, entry by entry, plus the constant: what the row layout computes, as one function of the
    whole arrays. -/
def rowScaled (X : FVec Ideal Rows .f32) (Q : FVec Ideal Lanes .f32) : FVec Ideal Rows .f32 :=
  fun j => X j * Q (ix2 (n0 := 1) (n1 := 128) ⟨0, Nat.one_pos⟩ ⟨(j 1).val, (j 1).isLt⟩) + shift

/-- On a band of rows the same, written with the vector operations a band is computed by: the lanes spread over the
    band's rows, the product, the constant spread over the band, the sum; the re-layouts to the same shape change nothing. -/
theorem band_apply (v0 : FVec Ideal Lanes .f32) (v4 : FVec Ideal Band .f32) (hs1 : Lanes.ShapeCasts Lanes)
    (hb : Lanes.Broadcasts Band) (hs2 : Band.ShapeCasts Band) (j : Band.Idx) :
    addf (mulf (shapeCast Band v4 hs2) (broadcastTo Band (shapeCast Lanes (shapeCast Lanes v0 hs1) hs1) hb))
        (broadcast Band (Scalar.ofBits (F := Ideal) .f32 0x3727C5AC#32)) j
      = v4 j * v0 (ix2 (n0 := 1) (n1 := 128) ⟨0, Nat.one_pos⟩ ⟨(j 1).val, (j 1).isLt⟩) + shift := by
  rw [shapeCast_self, shapeCast_self, shapeCast_self]
  show v4 j * broadcastTo Band v0 hb j + shift = _
  rw [broadcastTo_apply v0 hb j (ix2 (n0 := 1) (n1 := 128) ⟨0, Nat.one_pos⟩ ⟨(j 1).val, (j 1).isLt⟩) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])]

/-! ## The law -/

/-- THE LAW: the stack laid out as rows, scaled by the table's lanes, and laid out as tiles again is the stack scaled by
    the table. Position n = 64·a + 8·b + c is lane n mod 128 of row n / 128, and that lane holds the table's entry
    (((n mod 128) mod 64) / 8, (n mod 128) mod 8) = (b, c). -/
theorem restack (x : FVec Ideal Stack .f32) (q : FVec Ideal Table .f32) (hx : Stack.ShapeCasts Rows)
    (h1 : Table.ShapeCasts Flat64) (h2 : Flat64.ShapeCasts Row64)
    (h3 : Row64.BroadcastsInDim Pair64 (![0, 1] : Fin 2 → Fin Pair64.rank)) (h4 : Pair64.ShapeCasts Flat128)
    (h5 : Flat128.ShapeCasts Lanes) (hb : Rows.ShapeCasts Stack) :
    shapeCast Stack (rowScaled (shapeCast Rows x hx) (lanes q h1 h2 h3 h4 h5)) hb = scaled x q := by
  funext i
  have ha : (i 0).val < 800000 := (i 0).isLt
  have hb' : (i 1).val < 8 := (i 1).isLt
  have hc : (i 2).val < 8 := (i 2).isLt
  obtain ⟨n, hn⟩ : ∃ n : Nat, n = ((i 0).val * 8 + (i 1).val) * 8 + (i 2).val := ⟨_, rfl⟩
  -- the tiles at (a, b, c) are the rows at (n / 128, n mod 128)
  refine (shapeCast_apply _ hb i (ix2 (n0 := 400000) (n1 := 128) ⟨n / 128, by omega⟩ ⟨n % 128, by omega⟩) (by
    rw [Shape.rowMajor_val_two, Shape.rowMajor_val_three]
    show n / 128 * 128 + n % 128 = ((i 0).val * 8 + (i 1).val) * 8 + (i 2).val
    omega)).trans ?_
  show shapeCast Rows x hx (ix2 (n0 := 400000) (n1 := 128) ⟨n / 128, by omega⟩ ⟨n % 128, by omega⟩)
      * lanes q h1 h2 h3 h4 h5 (ix2 (n0 := 1) (n1 := 128) ⟨0, Nat.one_pos⟩ ⟨n % 128, by omega⟩) + shift
    = x i * q (tableIx i) + shift
  -- and the rows there are the tiles at (a, b, c) again
  rw [shapeCast_apply x hx _ i (by
    rw [Shape.rowMajor_val_three, Shape.rowMajor_val_two]
    show ((i 0).val * 8 + (i 1).val) * 8 + (i 2).val = n / 128 * 128 + n % 128
    omega), lanes_apply]
  -- the lane's table entry is (b, c)
  refine congrArg (fun e => x i * q e + shift) (funext fun a => Fin.ext ?_)
  match a with
  | ⟨0, _⟩ => show n % 128 % 64 / 8 = (i 1).val; omega
  | ⟨1, _⟩ => show n % 128 % 8 = (i 2).val; omega

end Cert.Tiles

end
-- ==== Proof.RowValue.lean ====
/-
  What the kernel's region leaves in its output array, as one function of the two arrays it reads.

  The region runs over 40 grid points. At point t it reads band t of the rows (rows 10000·t … 10000·t + 9999, all 128 lanes)
  and the one row of lanes (the same block at every point), and writes back band t of the output: each row of the band times
  the lanes, plus the constant. So what point t writes is band t of ONE whole-array function of the two inputs
  (`Tiles.rowScaled`), the 40 bands tile the 400000 rows, and the output array ends holding that function.
-/
import proofs.«180743_j27616639714076_1_alg».proof.Proof.Gen.KernelIdeal.Frame
import proofs.«180743_j27616639714076_1_alg».proof.Proof.Tiles
import Idealize.ShloMosaic.Lib.Pipeline.Value
import Idealize.ShloMosaic.Lib.ValueIdx

set_option maxRecDepth 16384

noncomputable section

namespace Cert.KernelIdeal.RowValue

open Cert.KernelIdeal Cert.KernelIdeal.Gen Cert.Tiles
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- The rows as the region finds them. -/
abbrev rowsIn (c : Dev nD) : FVec Ideal S400000x128 .f32 := V m c main_v0
/-- The lanes as the region finds them. -/
abbrev lanesIn (c : Dev nD) : FVec Ideal S1x128 .f32 := V m c main_v5

theorem zero_offsets : (![0, 0] : Fin 2 → Nat) = fun _ => 0 := funext fun a => by fin_cases a <;> rfl

/-- The value the body stores, at an entry of the band: the band's entry times the lane under it, plus the constant. -/
theorem stored_apply (x0 : Vec Ideal S10000x128 .f32) (x1 : Vec Ideal S1x128 .f32) (j : S10000x128.Idx) :
    k0_pay1 x1 x0 j = x0 j * x1 (ix2 (n0 := 1) (n1 := 128) ⟨0, Nat.one_pos⟩ ⟨(j 1).val, (j 1).isLt⟩) + shift := by
  unfold k0_pay1
  exact band_apply x1 x0 _ _ _ j

/-- The block indices over the grid: the rows' band moves with the output's, the lanes' block never moves, and the output's
    band at point t is band t. -/
theorem idx_facts : ∀ t : Fin cfg0.N, win0_0.index t (0 : Fin 2) = win0_2.index t (0 : Fin 2)
    ∧ win0_0.index t (1 : Fin 2) = win0_2.index t (1 : Fin 2)
    ∧ win0_1.index t (0 : Fin 2) = 0 ∧ win0_1.index t (1 : Fin 2) = 0
    ∧ win0_2.index t (1 : Fin 2) = 0 :=
  (by decide +kernel : ∀ t : Fin grid0.N, _)

/-- Every band is some point's. -/
theorem idx_onto : ∀ q0 : Fin 40, ∃ t : Fin cfg0.N, win0_2.index t = ![q0.val, 0] :=
  (by decide +kernel : ∀ q0 : Fin 40, ∃ t : Fin grid0.N, win0_2.index t = ![q0.val, 0])

/-- WHAT POINT t WRITES BACK is band t of `rowScaled` of the rows and the lanes as the region finds them. -/
theorem flushed_eq (c : Dev nD) (t : Fin cfg0.N) :
    (dats m 0 c).flushed 2 t = ((cfg0.win 2).blk t).view.read (Elt Ideal) (rowScaled (rowsIn m c) (lanesIn m c)) := by
  show (cfg0.win 2).cut (grid0.coords t) ((dats m 0 c).after 2 t) = _
  rw [after0_2]
  unfold out0_2
  rw [View.canon_unit_zero zero_offsets]
  simp only [View.ld_unit_zero (S := S1x128) zero_offsets, View.ld_unit_zero (S := S10000x128) zero_offsets]
  obtain ⟨e0, e1, e2, e3, e4⟩ := idx_facts t
  funext j
  show k0_pay1 (iblk m c 1 t) (iblk m c 0 t) j = rowScaled (rowsIn m c) (lanesIn m c) (((cfg0.win 2).blk t).view.emb j)
  refine (stored_apply (iblk m c 0 t) (iblk m c 1 t) j).trans ?_
  -- the band's entry j sits in the rows where the output band's entry j sits
  have h0 : ((cfg0.win 0).blk t).view.emb j = ((cfg0.win 2).blk t).view.emb j := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * (j 1).val = win0_2.index t (1 : Fin 2) * 128 + 1 * (j 1).val; omega
  -- the lanes' block is the whole row of lanes, and the output band spans all 128 lanes: the lane under entry j is lane j
  have h1 : ((cfg0.win 1).blk t).view.emb (ix2 (n0 := 1) (n1 := 128) ⟨0, Nat.one_pos⟩ ⟨(j 1).val, (j 1).isLt⟩)
      = ix2 (n0 := 1) (n1 := 128) ⟨0, Nat.one_pos⟩
          ⟨((((cfg0.win 2).blk t).view.emb j) 1).val, ((((cfg0.win 2).blk t).view.emb j) 1).isLt⟩ := by
    funext a; apply Fin.ext
    match a with
    | ⟨0, _⟩ => show win0_1.index t (0 : Fin 2) * 1 + 1 * 0 = 0; omega
    | ⟨1, _⟩ => show win0_1.index t (1 : Fin 2) * 128 + 1 * (j 1).val = win0_2.index t (1 : Fin 2) * 128 + 1 * (j 1).val; omega
  show rowsIn m c (((cfg0.win 0).blk t).view.emb j)
        * lanesIn m c (((cfg0.win 1).blk t).view.emb (ix2 (n0 := 1) (n1 := 128) ⟨0, Nat.one_pos⟩ ⟨(j 1).val, (j 1).isLt⟩)) + shift
      = rowsIn m c (((cfg0.win 2).blk t).view.emb j)
        * lanesIn m c (ix2 (n0 := 1) (n1 := 128) ⟨0, Nat.one_pos⟩
            ⟨((((cfg0.win 2).blk t).view.emb j) 1).val, ((((cfg0.win 2).blk t).view.emb j) 1).isLt⟩) + shift
  rw [h0, h1]

/-- A row is in point t's band iff it is one of the band's 10000 rows (every lane is). -/
theorem mem_band (t : Fin cfg0.N) (i : S400000x128.Idx) :
    i ∈ ((cfg0.win 2).blk t).view.set
      ↔ ∀ a : Fin 2, win0_2.index t a * S10000x128.size a ≤ (i a).val ∧ (i a).val < win0_2.index t a * S10000x128.size a + S10000x128.size a := by
  show i ∈ ((View.whole main_v6).slice (win0_2.rect t)).set ↔ _
  rw [View.set_slice_whole, Rect.mem_set_unit]
  exact Iff.rfl

/-- THE BANDS TILE THE ROWS: row r is in the band of the point whose band index is r / 10000, and every point writes back. -/
theorem cover (i : S400000x128.Idx) :
    ∃ t : Fin cfg0.N, (cfg0.win 2).flush t = true ∧ i ∈ ((cfg0.win 2).blk t).view.set := by
  have hi0 : (i 0).val < 400000 := (i 0).isLt
  have hi1 : (i 1).val < 128 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_band]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- THE OUTPUT ARRAY after the region: the rows scaled by the lanes, as the region found them. -/
theorem final (c : Dev nD) : (dats m 0 c).arrAt 2 cfg0.N = rowScaled (rowsIn m c) (lanesIn m c) :=
  (dats m 0 c).arrAt_eq_of_cover 2 _ (fun t _ => flushed_eq m c t) cover

end Cert.KernelIdeal.RowValue

end
-- ==== Proof.TileValue.lean ====
/-
  The kernel program end to end: the host lines before the region lay the stack out as rows and the table out as lanes;
  the region leaves the rows scaled by the lanes (`RowValue.final`); the host lines after it lay those rows out as tiles
  again and add two leading axes of length one. By the law of the layouts (`Tiles.restack`) the result is the
  specification `Tiles.scaled` of the two argument arrays, under those two axes.
-/
import proofs.«180743_j27616639714076_1_alg».proof.Proof.RowValue
import Idealize.ShloMosaic.Lib.StableHlo.Run

set_option maxRecDepth 16384

noncomputable section

namespace Cert.KernelIdeal.TileValue

open Cert.KernelIdeal Cert.KernelIdeal.Gen Cert.KernelIdeal.RowValue Cert.Tiles
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-- The rows the region finds are the stack argument, laid out as rows. -/
theorem rows_eq (c : Dev nD) :
    rowsIn m c = shapeCast S400000x128 (m ((c : Thread nD τ).loc main_arg0)) shapeCasts_S800000x8x8_S400000x128 := by
  show StableHlo.after hostOps0 (fun b => m (c, b)) (Proc.devRef .tc main_v0) = _
  after_results
  rfl

/-- The lanes the region finds are the table argument, flattened, repeated twice and flattened again. -/
theorem lanes_eq (c : Dev nD) :
    lanesIn m c = lanes (m ((c : Thread nD τ).loc main_arg1)) shapeCasts_S8x8_S64 shapeCasts_S64_S1x64 bcast_S1x64_S2x64_0_1
      shapeCasts_S2x64_S128 shapeCasts_S128_S1x128 := by
  show StableHlo.after hostOps0 (fun b => m (c, b)) (Proc.devRef .tc main_v5) = _
  after_results
  rfl

/-- THE RESULT of the lines after the region: the region's output rows laid out as tiles, under two unit axes — the
    specification of the two arguments. -/
theorem result_eq (c : Dev nD) :
    Pipeline.afterTail₀ cfgs (dats m) 0 (V0 m) [hostOps1] c main_v8
      = broadcastInDim S1x1x800000x8x8 ![2, 3, 4] bcast_S800000x8x8_S1x1x800000x8x8_2_3_4
          (scaled (m ((c : Thread nD τ).loc main_arg0)) (m ((c : Thread nD τ).loc main_arg1))) := by
  have hw : Pipeline.withArrays (cfgs 0).spec c (V0 m c) (fun w => (dats m 0 c).arrAt w (cfgs 0).N) (Proc.devRef .tc main_v6)
      = rowScaled (rowsIn m c) (lanesIn m c) :=
    (Pipeline.withArrays_arr spec0 launch0.win.arr_inj c _ _ 2).trans (final m c)
  unfold Pipeline.afterTail₀
  show StableHlo.after hostOps1 _ (Proc.devRef .tc main_v8) = _
  after_results
  refine congrArg (broadcastInDim (s := S800000x8x8) (α := EReal) S1x1x800000x8x8
    (![2, 3, 4] : Fin 3 → Fin S1x1x800000x8x8.rank) bcast_S800000x8x8_S1x1x800000x8x8_2_3_4) ?_
  show shapeCast S800000x8x8 (Pipeline.withArrays (cfgs 0).spec c (V0 m c) (fun w => (dats m 0 c).arrAt w (cfgs 0).N)
      (Proc.devRef .tc main_v6)) shapeCasts_S400000x128_S800000x8x8 = _
  rw [hw, rows_eq, lanes_eq]
  exact restack _ _ _ _ _ _ _ _ _

/-- THE RUN: every weakly fair execution of the kernel program ends with its result at the specification of its two
    arguments (under the two unit axes), the arguments unchanged. -/
theorem run : θ_run defs (onTc (τ := τ) (main (F := Ideal))) ⟨m, fun _ => 0, ρ⟩ fun r => ∀ c : Dev nD,
      r.2.mem ((c.tc : Thread nD τ).loc main_v8)
        = broadcastInDim S1x1x800000x8x8 ![2, 3, 4] bcast_S800000x8x8_S1x1x800000x8x8_2_3_4
            (scaled (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v8 (Pipeline.mem_restRefs_of main_v8 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.TileValue

end
-- ==== Proof.RefValue.lean ====
/-
  What the reference computes, read one operation at a time: the table is spread over the 800000 tiles, the stack is
  multiplied by it entry by entry, the constant is spread over the stack and added — the specification itself
  (`Tiles.scaled`), with the table read at (b, c) for position (a, b, c) — and the result is given two leading axes of length one.
-/
import proofs.«180743_j27616639714076_1_alg».proof.Proof.Gen.ReferenceIdeal.Read
import proofs.«180743_j27616639714076_1_alg».proof.Proof.Tiles

noncomputable section

namespace Cert.ReferenceIdeal.RefValue

open Cert.ReferenceIdeal Cert.ReferenceIdeal.Gen Cert.ReferenceIdeal.Read Cert.Tiles
open Idealize.ShloMosaic Idealize.ShloMosaic.ValueIdx

/-- The table spread over the tiles is read, at position (a, b, c), at the table's (b, c). -/
theorem spread_ix (i : S800000x8x8.Idx) : idx_main_v0 (idx_main_v1 i) = tableIx i := by
  funext a; match a with | ⟨0, _⟩ => rfl | ⟨1, _⟩ => rfl

/-- The reference's sum, before the two unit axes are added, is the specification. -/
theorem sum_eq (x0 : FVec Ideal S800000x8x8 .f32) (x1 : FVec Ideal S8x8 .f32) :
    val_main_v4 (F := Ideal) x0 x1 = scaled x0 x1 := by
  funext i
  rw [val_main_v4_apply, val_main_v2_apply, val_main_v1_apply, val_main_v0_apply, val_main_v3_apply, val_main_cst_apply,
    spread_ix]
  rfl

/-- The reference's result: the specification under two leading axes of length one. -/
theorem result_eq (x0 : FVec Ideal S800000x8x8 .f32) (x1 : FVec Ideal S8x8 .f32) :
    val_main_v5 (F := Ideal) x0 x1
      = broadcastInDim S1x1x800000x8x8 ![2, 3, 4] bcast_S800000x8x8_S1x1x800000x8x8_2_3_4 (scaled x0 x1) := by
  unfold val_main_v5
  rw [sum_eq]

end Cert.ReferenceIdeal.RefValue

end
-- ==== Proof.lean ====
/-
  The certificate: a stack of 800000 tiles of 8 × 8 numbers, each tile multiplied entry by entry by one 8 × 8 table, plus a
  constant — computed by a kernel on a layout of 400000 rows of 128 lanes (two tiles to a row, the table repeated along the
  lanes) in 40 bands of 10000 rows, against the reference that does it on the tiles directly.

  Over the extended reals both programs end with position (a, b, c) of the result at x (a, b, c) · q (b, c) + ε, the same
  product and the same sum of the same numbers with the same constant ε (one binary word on both sides): the kernel because
  position (a, b, c) of the stack is lane (64·a + 8·b + c) mod 128 of a row, and that lane of the repeated table is the
  table's entry (b, c) (Proof/Tiles.lean, the law; Proof/RowValue.lean, what the region's 40 points leave in its output;
  Proof/TileValue.lean, the host lines around it), the reference by reading its operations one at a time
  (Proof/RefValue.lean). No law of arithmetic is used beyond that index identity, so the inputs' finiteness is never opened.
  The three frames are the two kernels' frame runs and the reference's run with the result dropped; the idealization
  rewrote no operation, so there is nothing to preserve.
-/
import proofs.«180743_j27616639714076_1_alg».proof.Defs
import proofs.«180743_j27616639714076_1_alg».proof.Proof.Gen.Kernel
import proofs.«180743_j27616639714076_1_alg».proof.Proof.Gen.Kernel.Frame
import proofs.«180743_j27616639714076_1_alg».proof.Proof.Gen.KernelIdeal
import proofs.«180743_j27616639714076_1_alg».proof.Proof.Gen.KernelIdeal.Frame
import proofs.«180743_j27616639714076_1_alg».proof.Proof.Gen.ReferenceIdeal
import proofs.«180743_j27616639714076_1_alg».proof.Proof.Gen.ReferenceIdeal.Run
import proofs.«180743_j27616639714076_1_alg».proof.Proof.Gen.ReferenceIdeal.Read
import proofs.«180743_j27616639714076_1_alg».proof.Proof.Gen.Pre_finite_inputs
import proofs.«180743_j27616639714076_1_alg».proof.Proof.TileValue
import proofs.«180743_j27616639714076_1_alg».proof.Proof.RefValue
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- And the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, the kernel ends at the specification of its arguments and the reference at the
    specification of its own: one array. -/
theorem algebraic : Cert.algebraic_KernelIdeal_ReferenceIdeal := by
  intro m ρ m' ρ' _ hagree
  refine ⟨_, Cert.KernelIdeal.TileValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
